-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x512 : Shape := ⟨2, ![256, 512]⟩
abbrev S1x512 : Shape := ⟨2, ![1, 512]⟩
abbrev S512x256 : Shape := ⟨2, ![512, 256]⟩
abbrev S1x256 : Shape := ⟨2, ![1, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S65536x256 .f32) (main_arg1 : FVec F S256x512 .f32) (main_arg2 : FVec F S1x512 .f32) (main_arg3 : FVec F S512x256 .f32) (main_arg4 : FVec F S1x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S65536x256 : Shape := ⟨2, ![65536, 256]⟩
abbrev S256x512 : Shape := ⟨2, ![256, 512]⟩
abbrev S1x512 : Shape := ⟨2, ![1, 512]⟩
abbrev S512x256 : Shape := ⟨2, ![512, 256]⟩
abbrev S1x256 : Shape := ⟨2, ![1, 256]⟩
abbrev S2048x256 : Shape := ⟨2, ![2048, 256]⟩
abbrev S2048x512 : Shape := ⟨2, ![2048, 512]⟩

abbrev nBuf : Space → Nat
  | .hbm => 8
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S256x512, .f32⟩
  | .hbm, ⟨2, _⟩ => ⟨S1x512, .f32⟩
  | .hbm, ⟨3, _⟩ => ⟨S512x256, .f32⟩
  | .hbm, ⟨4, _⟩ => ⟨S1x256, .f32⟩
  | .hbm, ⟨5, _⟩ => ⟨S256x512, .bf16⟩
  | .hbm, ⟨6, _⟩ => ⟨S512x256, .bf16⟩
  | .hbm, ⟨7, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  broadcasts_S1x256_S2048x256 : S1x256.Broadcasts S2048x256
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S65536x256.size a
  hwx0_5 : ∀ i : grid0.Coords, EltTy.bits .f32 = 32 ∨ (Rect.block (s := S65536x256) S2048x256.size (cc0_transform_5 i) (hinb0_5 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x512 : Shape := ⟨2, ![256, 512]⟩
abbrev S1x512 : Shape := ⟨2, ![1, 512]⟩
abbrev S512x256 : Shape := ⟨2, ![512, 256]⟩
abbrev S1x256 : Shape := ⟨2, ![1, 256]⟩
abbrev S1024x256 : Shape := ⟨2, ![1024, 256]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S256x512, .f32⟩
  | .hbm, ⟨2, _⟩ => ⟨S1x512, .f32⟩
  | .hbm, ⟨3, _⟩ => ⟨S512x256, .f32⟩
  | .hbm, ⟨4, _⟩ => ⟨S1x256, .f32⟩
  | .hbm, ⟨5, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  broadcasts_S1x256_S1024x256 : S1x256.Broadcasts S1024x256
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S65536x256.size a
  hwx0_5 : ∀ i : grid0.Coords, EltTy.bits .f32 = 32 ∨ (Rect.block (s := S65536x256) S1024x256.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Mlp.lean ====
/-
  The function both programs compute, over the extended reals: a two-layer perceptron applied row by row,

      out[r, q] = Σ_j max( Σ_k x[r, k] · w1[k, j] + b1[0, j], 0 ) · w2[j, q] + b2[0, q]

  for x : [65536, 256], w1 : [256, 512], b1 : [1, 512], w2 : [512, 256], b2 : [1, 256].
  The entry at (r, q) reads row r of x and nothing else of x, so the result is the same however the rows are
  cut into blocks: `rowOut` is the entry as a function of ONE row, and `mlp` applies it at every row.
  The zero the hidden layer is clamped at is kept as the word both programs print for it.
-/
import Idealize.ShloMosaic.PureOps.Ideal
import Idealize.ShloMosaic.Lib.ValueIdx

noncomputable section

open scoped BigOperators

namespace Cert.Mlp

open Idealize.ShloMosaic Idealize.ShloMosaic.ValueIdx

abbrev SX : Shape := ⟨2, ![65536, 256]⟩
abbrev SW1 : Shape := ⟨2, ![256, 512]⟩
abbrev SB1 : Shape := ⟨2, ![1, 512]⟩
abbrev SW2 : Shape := ⟨2, ![512, 256]⟩
abbrev SB2 : Shape := ⟨2, ![1, 256]⟩

/-- Hidden unit j of one row: the row's product with column j of w1, plus the bias, clamped below at zero. -/
def hidden (xrow : Fin 256 → EReal) (w1 : SW1.Idx → EReal) (b1 : SB1.Idx → EReal) (j : Fin 512) : EReal :=
  max ((∑ k : Fin 256, xrow k * w1 (ix2 k j)) + b1 (ix2 0 j)) (Ideal.ofBits .f32 0x00000000#32)

/-- Output q of one row: the hidden layer's product with column q of w2, plus the bias. -/
def rowOut (xrow : Fin 256 → EReal) (w1 : SW1.Idx → EReal) (b1 : SB1.Idx → EReal) (w2 : SW2.Idx → EReal)
    (b2 : SB2.Idx → EReal) (q : Fin 256) : EReal :=
  (∑ j : Fin 512, hidden xrow w1 b1 j * w2 (ix2 j q)) + b2 (ix2 0 q)

/-- The whole result: entry (r, q) is `rowOut` of row r of x at q. -/
def mlp (x : SX.Idx → EReal) (w1 : SW1.Idx → EReal) (b1 : SB1.Idx → EReal) (w2 : SW2.Idx → EReal)
    (b2 : SB2.Idx → EReal) : SX.Idx → EReal :=
  fun i => rowOut (fun k => x (ix2 (i 0) k)) w1 b1 w2 b2 (i 1)

end Cert.Mlp

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KernelValue.lean ====
/-
  The idealized kernel's result array, read as the perceptron of the argument arrays.

  One grid point works on 2048 consecutive rows of x and on the whole of the two weight matrices and the two
  bias rows. Its block of the result, at local row p and column q, is the perceptron's entry for that row
  (`pay_apply`): the two changes of float format and the two same-shape casts are the identity on extended reals,
  each matrix product into zero is the plain sum over the contracted coordinate, and each bias is a one-row block
  read at its column. The two weight matrices reach the region through a change of format on the host, which is again
  the identity (`w1_entry`, `w2_entry`). Point t's rows are rows 2048·t … 2048·t + 2047 of x, so what it writes back
  is block t of `mlp` of the arguments (`flushed_eq`); the 32 blocks tile the 65536 rows (`cover`), hence the array
  ends at `mlp` of the arguments (`final`, `run`).
-/
import proofs.«148882_g2000506213749581_pallasbulk_74_2_alg».proof.Proof.Gen.KernelIdeal.Value
import proofs.«148882_g2000506213749581_pallasbulk_74_2_alg».proof.Proof.Mlp
import proofs.«148882_g2000506213749581_pallasbulk_74_2_alg».proof.Proof.LibMatmulPlain
import Idealize.ShloMosaic.Lib.StableHlo.Run

noncomputable section

open scoped BigOperators

namespace Cert.KernelIdeal.MlpValue

open Cert.KernelIdeal Cert.KernelIdeal.Gen Cert.KernelIdeal.Value Idealize.ShloMosaic Idealize.ShloMosaic.TcCoe Idealize.SL.Sem
open Idealize.ShloMosaic.ValueIdx Cert.Mlp Cert.LibMatmulPlain
open Idealize.ShloMosaic.Pipeline (Dat)

/-- The body's stored value at local row p, column q: the perceptron's entry for that row of the x block. -/
theorem pay_apply (x0 : Vec Ideal S2048x256 .f32) (x1 : Vec Ideal S256x512 .bf16) (x2 : Vec Ideal S1x512 .f32)
    (x3 : Vec Ideal S512x256 .bf16) (x4 : Vec Ideal S1x256 .f32) (p : Fin 2048) (q : Fin 256) :
    k0_pay1 (F := Ideal) x0 x1 x2 x3 x4 (ix2 p q) = rowOut (fun k => x0 (ix2 p k)) x1 x2 x3 x4 q := by
  unfold k0_pay1 rowOut
  refine congrArg₂ (· + ·) ?_ (rowBroadcast_apply x4 _ p q)
  refine (matmul_plain_zero_apply none _ _ p q).trans ?_
  refine Finset.sum_congr rfl fun j _ => ?_
  refine congrArg₂ (· * ·) ?_ (congrFun (shapeCast_self x3 _) (ix2 j q))
  unfold Mlp.hidden
  refine congrArg₂ max ?_ rfl
  refine congrArg₂ (· + ·) ?_ (rowBroadcast_apply x2 _ p j)
  refine (matmul_plain_zero_apply none _ _ p j).trans ?_
  refine Finset.sum_congr rfl fun k _ => ?_
  exact congrArg (x0 (ix2 p k) * ·) (congrFun (shapeCast_self x1 _) (ix2 k j))

/-- The whole-block rectangle's offsets are zero on both axes. -/
theorem hz : (![0, 0] : Fin 2 → Nat) = fun _ => 0 := funext fun a => by fin_cases a <;> rfl

variable (m : (ℓ : Loc nD τ sig) → Buf (Elt Ideal) ℓ) (ρ : Dev nD → PrngReg)

/-- The five argument arrays, as the functions the perceptron is applied to. -/
abbrev argX (c : Dev nD) : SX.Idx → EReal := m ((c : Thread nD τ).loc main_arg0)
abbrev argW1 (c : Dev nD) : SW1.Idx → EReal := m ((c : Thread nD τ).loc main_arg1)
abbrev argB1 (c : Dev nD) : SB1.Idx → EReal := m ((c : Thread nD τ).loc main_arg2)
abbrev argW2 (c : Dev nD) : SW2.Idx → EReal := m ((c : Thread nD τ).loc main_arg3)
abbrev argB2 (c : Dev nD) : SB2.Idx → EReal := m ((c : Thread nD τ).loc main_arg4)

/-- The first weight matrix as the region finds it: the host's change of format of `w1`, the identity on extended reals. -/
theorem w1_entry (c : Dev nD) : (V m c main_v0 : SW1.Idx → EReal) = argW1 m c := by
  dsimp only [V, hostOps0]; after_results; rfl

/-- The second weight matrix as the region finds it: the host's change of format of `w2`, again the identity. -/
theorem w2_entry (c : Dev nD) : (V m c main_v1 : SW2.Idx → EReal) = argW2 m c := by
  dsimp only [V, hostOps0]; after_results; rfl

/-- The printed index maps over the 32 points: the x window and the result window sit at block row t, column 0; the
    weight and bias windows always at block (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The first weight window's block at any point is the whole of `w1`. -/
theorem blk_w1 (c : Dev nD) (t : Fin cfg0.N) : (iblk m c 1 t : SW1.Idx → EReal) = argW1 m c := by
  obtain ⟨-, -, -, -, e0, e1, -⟩ := idx_facts t
  funext z
  show V m c main_v0 (((cfg0.win 1).blk t).view.emb z) = _
  refine (congrFun (w1_entry m c) _).trans (congrArg (argW1 m c) ?_)
  funext a; apply Fin.ext
  match a with
  | ⟨0, _⟩ => show win0_1.index t (0 : Fin 2) * 256 + 1 * (z 0).val = (z 0).val; omega
  | ⟨1, _⟩ => show win0_1.index t (1 : Fin 2) * 512 + 1 * (z 1).val = (z 1).val; omega

/-- The first bias window's block at any point is the whole bias row. -/
theorem blk_b1 (c : Dev nD) (t : Fin cfg0.N) : (iblk m c 2 t : SB1.Idx → EReal) = argB1 m c := by
  obtain ⟨-, -, -, -, -, -, e0, e1, -⟩ := idx_facts t
  funext z
  show V m c main_arg2 (((cfg0.win 2).blk t).view.emb z) = _
  refine (congrFun (V_main_arg2 m c) _).trans (congrArg (argB1 m c) ?_)
  funext a; apply Fin.ext
  match a with
  | ⟨0, _⟩ => show win0_2.index t (0 : Fin 2) * 1 + 1 * (z 0).val = (z 0).val; omega
  | ⟨1, _⟩ => show win0_2.index t (1 : Fin 2) * 512 + 1 * (z 1).val = (z 1).val; omega

/-- The second weight window's block at any point is the whole of `w2`. -/
theorem blk_w2 (c : Dev nD) (t : Fin cfg0.N) : (iblk m c 3 t : SW2.Idx → EReal) = argW2 m c := by
  obtain ⟨-, -, -, -, -, -, -, -, e0, e1, -⟩ := idx_facts t
  funext z
  show V m c main_v1 (((cfg0.win 3).blk t).view.emb z) = _
  refine (congrFun (w2_entry m c) _).trans (congrArg (argW2 m c) ?_)
  funext a; apply Fin.ext
  match a with
  | ⟨0, _⟩ => show win0_3.index t (0 : Fin 2) * 512 + 1 * (z 0).val = (z 0).val; omega
  | ⟨1, _⟩ => show win0_3.index t (1 : Fin 2) * 256 + 1 * (z 1).val = (z 1).val; omega

/-- The second bias window's block at any point is the whole bias row. -/
theorem blk_b2 (c : Dev nD) (t : Fin cfg0.N) : (iblk m c 4 t : SB2.Idx → EReal) = argB2 m c := by
  obtain ⟨-, -, -, -, -, -, -, -, -, -, e0, e1⟩ := idx_facts t
  funext z
  show V m c main_arg4 (((cfg0.win 4).blk t).view.emb z) = _
  refine (congrFun (V_main_arg4 m c) _).trans (congrArg (argB2 m c) ?_)
  funext a; apply Fin.ext
  match a with
  | ⟨0, _⟩ => show win0_4.index t (0 : Fin 2) * 1 + 1 * (z 0).val = (z 0).val; omega
  | ⟨1, _⟩ => show win0_4.index t (1 : Fin 2) * 256 + 1 * (z 1).val = (z 1).val; omega

/-- The x window's block at point t, local row p, column k, is x at row 2048·t + p, column k. -/
theorem blk_x (c : Dev nD) (t : Fin cfg0.N) (p : Fin 2048) (k : Fin 256) (r : Fin 65536) (hr : r.val = t.val * 2048 + p.val) :
    (iblk m c 0 t : S2048x256.Idx → EReal) (ix2 p k) = argX m c (ix2 r k) := by
  obtain ⟨e0, e1, -⟩ := idx_facts t
  show V m c main_arg0 (((cfg0.win 0).blk t).view.emb (ix2 p k)) = _
  refine (congrFun (V_main_arg0 m c) _).trans (congrArg (argX m c) ?_)
  funext a; apply Fin.ext
  match a with
  | ⟨0, _⟩ => show win0_0.index t (0 : Fin 2) * 2048 + 1 * p.val = r.val; omega
  | ⟨1, _⟩ => show win0_0.index t (1 : Fin 2) * 256 + 1 * k.val = k.val; omega

/-- WHAT POINT t WRITES BACK is block t of the perceptron of the argument arrays. -/
theorem flushed_eq (c : Dev nD) (t : Fin cfg0.N) :
    (dats m 0 c).flushed 5 t
      = ((cfg0.win 5).blk t).view.read (Elt Ideal) (mlp (argX m c) (argW1 m c) (argB1 m c) (argW2 m c) (argB2 m c)) := by
  rw [Value.flushed5]
  unfold out0_5
  rw [View.canon_unit_zero hz]
  simp only [View.ld_unit_zero (S := S2048x256) hz, View.ld_unit_zero (S := S256x512) hz, View.ld_unit_zero (S := S1x512) hz,
    View.ld_unit_zero (S := S512x256) hz, View.ld_unit_zero (S := S1x256) hz]
  obtain ⟨-, -, e0, e1, -⟩ := idx_facts t
  funext y
  obtain ⟨p, q, rfl⟩ : ∃ (p : Fin 2048) (q : Fin 256), y = ix2 p q := ⟨y 0, y 1, eq_ix2 y⟩
  show k0_pay1 (F := Ideal) (iblk m c 0 t) (iblk m c 1 t) (iblk m c 2 t) (iblk m c 3 t) (iblk m c 4 t) (ix2 p q)
    = mlp (argX m c) (argW1 m c) (argB1 m c) (argW2 m c) (argB2 m c) (((cfg0.win 5).blk t).view.emb (ix2 p q))
  have hp : p.val < 2048 := p.isLt
  have ht : t.val < 32 := Nat.lt_of_lt_of_eq t.isLt N_0
  have hrow : ((((cfg0.win 5).blk t).view.emb (ix2 p q)) 0).val = t.val * 2048 + p.val := by
    show win0_5.index t (0 : Fin 2) * 2048 + 1 * p.val = _; omega
  have hcol : (((cfg0.win 5).blk t).view.emb (ix2 p q)) 1 = q := by
    apply Fin.ext; show win0_5.index t (1 : Fin 2) * 256 + 1 * q.val = q.val; omega
  refine (pay_apply (iblk m c 0 t) (iblk m c 1 t) (iblk m c 2 t) (iblk m c 3 t) (iblk m c 4 t) p q).trans ?_
  unfold mlp
  rw [blk_w1 m c t, blk_b1 m c t, blk_w2 m c t, blk_b2 m c t, hcol]
  exact congrArg (fun xr => rowOut xr (argW1 m c) (argB1 m c) (argW2 m c) (argB2 m c) q)
    (funext fun k => blk_x m c t p k _ hrow)

/-- An index of the result array is in point t's block iff its row is among the block's 2048 rows. -/
theorem mem_blk (t : Fin cfg0.N) (i : S65536x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v2).slice (win0_5.rect t)).set ↔ _
  rw [View.set_slice_whole, Rect.mem_set_unit]
  exact Iff.rfl

/-- Every index of the result array lies in some point's block: row r is in block r / 2048. -/
theorem cover (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  have hN : cfg0.N = 32 := N_0
  refine ⟨⟨(i 0).val / 2048, by rw [hN]; omega⟩, flush0_5 _, ?_⟩
  obtain ⟨-, -, e0, e1, -⟩ := idx_facts ⟨(i 0).val / 2048, by rw [hN]; omega⟩
  rw [mem_blk]
  intro a
  match a with
  | ⟨0, _⟩ =>
    show win0_5.index _ (0 : Fin 2) * 2048 ≤ (i 0).val ∧ (i 0).val < win0_5.index _ (0 : Fin 2) * 2048 + 2048
    rw [e0]; show (i 0).val / 2048 * 2048 ≤ (i 0).val ∧ (i 0).val < (i 0).val / 2048 * 2048 + 2048; omega
  | ⟨1, _⟩ =>
    show win0_5.index _ (1 : Fin 2) * 256 ≤ (i 1).val ∧ (i 1).val < win0_5.index _ (1 : Fin 2) * 256 + 256
    rw [e1]; omega

/-- THE RESULT ARRAY after the run is the perceptron of the argument arrays. -/
theorem final (c : Dev nD) :
    (dats m 0 c).arrAt 5 cfg0.N = mlp (argX m c) (argW1 m c) (argB1 m c) (argW2 m c) (argB2 m c) :=
  (dats m 0 c).arrAt_eq_of_cover 5 _ (fun t _ => flushed_eq m c t) cover

/-- The run, read: the result at the perceptron of the arguments, the arguments unchanged. -/
theorem run : θ_run defs (onTc (τ := τ) (main (F := Ideal))) ⟨m, fun _ => 0, ρ⟩ fun r => ∀ c : Dev nD,
      r.2.mem ((c : Thread nD τ).loc main_v2) = mlp (argX m c) (argW1 m c) (argB1 m c) (argW2 m c) (argB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.MlpValue

end
-- ==== Proof.ReferenceValue.lean ====
/-
  The idealized reference's result array, read as the perceptron of the argument arrays.

  The reference is itself a tiled kernel: one grid point works on 1024 consecutive rows of x and on the whole of the
  two weight matrices and the two bias rows, all five read straight from the arguments. Its block of the result, at
  local row p and column q, is the perceptron's entry for that row (`pay_apply`): each matrix product into zero is
  the plain sum over the contracted coordinate — the full-precision contraction it asks for changes nothing on
  extended reals — and each bias is a one-row block read at its column. Point t's rows are rows 1024·t … 1024·t + 1023
  of x, so what it writes back is block t of `mlp` of the arguments (`flushed_eq`); the 64 blocks tile the 65536
  rows (`cover`), hence the array ends at `mlp` of the arguments (`final`, `run`).
-/
import proofs.«148882_g2000506213749581_pallasbulk_74_2_alg».proof.Proof.Gen.ReferenceIdeal.Value
import proofs.«148882_g2000506213749581_pallasbulk_74_2_alg».proof.Proof.Mlp
import proofs.«148882_g2000506213749581_pallasbulk_74_2_alg».proof.Proof.LibMatmulPlain

noncomputable section

open scoped BigOperators

namespace Cert.ReferenceIdeal.MlpValue

open Cert.ReferenceIdeal Cert.ReferenceIdeal.Gen Cert.ReferenceIdeal.Value Idealize.ShloMosaic Idealize.ShloMosaic.TcCoe Idealize.SL.Sem
open Idealize.ShloMosaic.ValueIdx Cert.Mlp Cert.LibMatmulPlain
open Idealize.ShloMosaic.Pipeline (Dat)

/-- The body's stored value at local row p, column q: the perceptron's entry for that row of the x block. -/
theorem pay_apply (x0 : Vec Ideal S1024x256 .f32) (x1 : Vec Ideal S256x512 .f32) (x2 : Vec Ideal S1x512 .f32)
    (x3 : Vec Ideal S512x256 .f32) (x4 : Vec Ideal S1x256 .f32) (p : Fin 1024) (q : Fin 256) :
    k0_pay1 (F := Ideal) x0 x1 x2 x3 x4 (ix2 p q) = rowOut (fun k => x0 (ix2 p k)) x1 x2 x3 x4 q := by
  unfold k0_pay1 rowOut
  refine congrArg₂ (· + ·) ?_ (rowBroadcast_apply x4 _ p q)
  refine (matmul_plain_zero_apply (some .fp32) _ _ p q).trans ?_
  refine Finset.sum_congr rfl fun j _ => ?_
  refine congrArg₂ (· * ·) ?_ rfl
  unfold Mlp.hidden
  refine congrArg₂ max ?_ rfl
  refine congrArg₂ (· + ·) ?_ (rowBroadcast_apply x2 _ p j)
  exact matmul_plain_zero_apply (some .fp32) _ _ p j

/-- The whole-block rectangle's offsets are zero on both axes. -/
theorem hz : (![0, 0] : Fin 2 → Nat) = fun _ => 0 := funext fun a => by fin_cases a <;> rfl

variable (m : (ℓ : Loc nD τ sig) → Buf (Elt Ideal) ℓ) (ρ : Dev nD → PrngReg)

/-- The five argument arrays, as the functions the perceptron is applied to. -/
abbrev argX (c : Dev nD) : SX.Idx → EReal := m ((c : Thread nD τ).loc main_arg0)
abbrev argW1 (c : Dev nD) : SW1.Idx → EReal := m ((c : Thread nD τ).loc main_arg1)
abbrev argB1 (c : Dev nD) : SB1.Idx → EReal := m ((c : Thread nD τ).loc main_arg2)
abbrev argW2 (c : Dev nD) : SW2.Idx → EReal := m ((c : Thread nD τ).loc main_arg3)
abbrev argB2 (c : Dev nD) : SB2.Idx → EReal := m ((c : Thread nD τ).loc main_arg4)

/-- The printed index maps over the 64 points: the x window and the result window sit at block row t, column 0; the
    weight and bias windows always at block (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The first weight window's block at any point is the whole of `w1`. -/
theorem blk_w1 (c : Dev nD) (t : Fin cfg0.N) : (iblk m c 1 t : SW1.Idx → EReal) = argW1 m c := by
  obtain ⟨-, -, -, -, e0, e1, -⟩ := idx_facts t
  funext z
  show V m c main_arg1 (((cfg0.win 1).blk t).view.emb z) = _
  refine (congrFun (V_main_arg1 m c) _).trans (congrArg (argW1 m c) ?_)
  funext a; apply Fin.ext
  match a with
  | ⟨0, _⟩ => show win0_1.index t (0 : Fin 2) * 256 + 1 * (z 0).val = (z 0).val; omega
  | ⟨1, _⟩ => show win0_1.index t (1 : Fin 2) * 512 + 1 * (z 1).val = (z 1).val; omega

/-- The first bias window's block at any point is the whole bias row. -/
theorem blk_b1 (c : Dev nD) (t : Fin cfg0.N) : (iblk m c 2 t : SB1.Idx → EReal) = argB1 m c := by
  obtain ⟨-, -, -, -, -, -, e0, e1, -⟩ := idx_facts t
  funext z
  show V m c main_arg2 (((cfg0.win 2).blk t).view.emb z) = _
  refine (congrFun (V_main_arg2 m c) _).trans (congrArg (argB1 m c) ?_)
  funext a; apply Fin.ext
  match a with
  | ⟨0, _⟩ => show win0_2.index t (0 : Fin 2) * 1 + 1 * (z 0).val = (z 0).val; omega
  | ⟨1, _⟩ => show win0_2.index t (1 : Fin 2) * 512 + 1 * (z 1).val = (z 1).val; omega

/-- The second weight window's block at any point is the whole of `w2`. -/
theorem blk_w2 (c : Dev nD) (t : Fin cfg0.N) : (iblk m c 3 t : SW2.Idx → EReal) = argW2 m c := by
  obtain ⟨-, -, -, -, -, -, -, -, e0, e1, -⟩ := idx_facts t
  funext z
  show V m c main_arg3 (((cfg0.win 3).blk t).view.emb z) = _
  refine (congrFun (V_main_arg3 m c) _).trans (congrArg (argW2 m c) ?_)
  funext a; apply Fin.ext
  match a with
  | ⟨0, _⟩ => show win0_3.index t (0 : Fin 2) * 512 + 1 * (z 0).val = (z 0).val; omega
  | ⟨1, _⟩ => show win0_3.index t (1 : Fin 2) * 256 + 1 * (z 1).val = (z 1).val; omega

/-- The second bias window's block at any point is the whole bias row. -/
theorem blk_b2 (c : Dev nD) (t : Fin cfg0.N) : (iblk m c 4 t : SB2.Idx → EReal) = argB2 m c := by
  obtain ⟨-, -, -, -, -, -, -, -, -, -, e0, e1⟩ := idx_facts t
  funext z
  show V m c main_arg4 (((cfg0.win 4).blk t).view.emb z) = _
  refine (congrFun (V_main_arg4 m c) _).trans (congrArg (argB2 m c) ?_)
  funext a; apply Fin.ext
  match a with
  | ⟨0, _⟩ => show win0_4.index t (0 : Fin 2) * 1 + 1 * (z 0).val = (z 0).val; omega
  | ⟨1, _⟩ => show win0_4.index t (1 : Fin 2) * 256 + 1 * (z 1).val = (z 1).val; omega

/-- The x window's block at point t, local row p, column k, is x at row 1024·t + p, column k. -/
theorem blk_x (c : Dev nD) (t : Fin cfg0.N) (p : Fin 1024) (k : Fin 256) (r : Fin 65536) (hr : r.val = t.val * 1024 + p.val) :
    (iblk m c 0 t : S1024x256.Idx → EReal) (ix2 p k) = argX m c (ix2 r k) := by
  obtain ⟨e0, e1, -⟩ := idx_facts t
  show V m c main_arg0 (((cfg0.win 0).blk t).view.emb (ix2 p k)) = _
  refine (congrFun (V_main_arg0 m c) _).trans (congrArg (argX m c) ?_)
  funext a; apply Fin.ext
  match a with
  | ⟨0, _⟩ => show win0_0.index t (0 : Fin 2) * 1024 + 1 * p.val = r.val; omega
  | ⟨1, _⟩ => show win0_0.index t (1 : Fin 2) * 256 + 1 * k.val = k.val; omega

/-- WHAT POINT t WRITES BACK is block t of the perceptron of the argument arrays. -/
theorem flushed_eq (c : Dev nD) (t : Fin cfg0.N) :
    (dats m 0 c).flushed 5 t
      = ((cfg0.win 5).blk t).view.read (Elt Ideal) (mlp (argX m c) (argW1 m c) (argB1 m c) (argW2 m c) (argB2 m c)) := by
  rw [Value.flushed5]
  unfold out0_5
  rw [View.canon_unit_zero hz]
  simp only [View.ld_unit_zero (S := S1024x256) hz, View.ld_unit_zero (S := S256x512) hz, View.ld_unit_zero (S := S1x512) hz,
    View.ld_unit_zero (S := S512x256) hz, View.ld_unit_zero (S := S1x256) hz]
  obtain ⟨-, -, e0, e1, -⟩ := idx_facts t
  funext y
  obtain ⟨p, q, rfl⟩ : ∃ (p : Fin 1024) (q : Fin 256), y = ix2 p q := ⟨y 0, y 1, eq_ix2 y⟩
  show k0_pay1 (F := Ideal) (iblk m c 0 t) (iblk m c 1 t) (iblk m c 2 t) (iblk m c 3 t) (iblk m c 4 t) (ix2 p q)
    = mlp (argX m c) (argW1 m c) (argB1 m c) (argW2 m c) (argB2 m c) (((cfg0.win 5).blk t).view.emb (ix2 p q))
  have hp : p.val < 1024 := p.isLt
  have ht : t.val < 64 := Nat.lt_of_lt_of_eq t.isLt N_0
  have hrow : ((((cfg0.win 5).blk t).view.emb (ix2 p q)) 0).val = t.val * 1024 + p.val := by
    show win0_5.index t (0 : Fin 2) * 1024 + 1 * p.val = _; omega
  have hcol : (((cfg0.win 5).blk t).view.emb (ix2 p q)) 1 = q := by
    apply Fin.ext; show win0_5.index t (1 : Fin 2) * 256 + 1 * q.val = q.val; omega
  refine (pay_apply (iblk m c 0 t) (iblk m c 1 t) (iblk m c 2 t) (iblk m c 3 t) (iblk m c 4 t) p q).trans ?_
  unfold mlp
  rw [blk_w1 m c t, blk_b1 m c t, blk_w2 m c t, blk_b2 m c t, hcol]
  exact congrArg (fun xr => rowOut xr (argW1 m c) (argB1 m c) (argW2 m c) (argB2 m c) q)
    (funext fun k => blk_x m c t p k _ hrow)

/-- An index of the result array is in point t's block iff its row is among the block's 1024 rows. -/
theorem mem_blk (t : Fin cfg0.N) (i : S65536x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v0).slice (win0_5.rect t)).set ↔ _
  rw [View.set_slice_whole, Rect.mem_set_unit]
  exact Iff.rfl

/-- Every index of the result array lies in some point's block: row r is in block r / 1024. -/
theorem cover (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_5 _, ?_⟩
  obtain ⟨-, -, e0, e1, -⟩ := idx_facts ⟨(i 0).val / 1024, by rw [hN]; omega⟩
  rw [mem_blk]
  intro a
  match a with
  | ⟨0, _⟩ =>
    show win0_5.index _ (0 : Fin 2) * 1024 ≤ (i 0).val ∧ (i 0).val < win0_5.index _ (0 : Fin 2) * 1024 + 1024
    rw [e0]; show (i 0).val / 1024 * 1024 ≤ (i 0).val ∧ (i 0).val < (i 0).val / 1024 * 1024 + 1024; omega
  | ⟨1, _⟩ =>
    show win0_5.index _ (1 : Fin 2) * 256 ≤ (i 1).val ∧ (i 1).val < win0_5.index _ (1 : Fin 2) * 256 + 256
    rw [e1]; omega

/-- THE RESULT ARRAY after the run is the perceptron of the argument arrays. -/
theorem final (c : Dev nD) :
    (dats m 0 c).arrAt 5 cfg0.N = mlp (argX m c) (argW1 m c) (argB1 m c) (argW2 m c) (argB2 m c) :=
  (dats m 0 c).arrAt_eq_of_cover 5 _ (fun t _ => flushed_eq m c t) cover

/-- The run, read: the result at the perceptron of the arguments, the arguments unchanged. -/
theorem run : θ_run defs (onTc (τ := τ) (main (F := Ideal))) ⟨m, fun _ => 0, ρ⟩ fun r => ∀ c : Dev nD,
      r.2.mem ((c : Thread nD τ).loc main_v0) = mlp (argX m c) (argW1 m c) (argB1 m c) (argW2 m c) (argB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.MlpValue

end
-- ==== Proof.lean ====
/- The certificate of a two-layer perceptron kernel against its reference, over the extended reals.

   Both programs compute, for x : [65536, 256], w1 : [256, 512], b1 : [1, 512], w2 : [512, 256], b2 : [1, 256],

       out[r, q] = Σ_j max( Σ_k x[r, k] · w1[k, j] + b1[0, j], 0 ) · w2[j, q] + b2[0, q].

   The kernel cuts the rows into 32 blocks of 2048 and narrows x, the hidden layer and both weight matrices to a
   shorter float format before each matrix product; the reference cuts them into 64 blocks of 1024 and multiplies at
   full precision. On extended reals a change of float format is the identity and a matrix product is the exact sum,
   and the entry at (r, q) reads row r of x only, so neither the format nor the cut of the rows shows in the result:
   each program's result array is `Cert.Mlp.mlp` of its arguments (Proof/KernelValue.lean, Proof/ReferenceValue.lean),
   the same function on both sides. No algebraic law is used beyond that, and the inputs' finiteness is never needed.
   The three frames are the generated ones; the idealization rewrote nothing, so `preserves` holds trivially. -/
import proofs.«148882_g2000506213749581_pallasbulk_74_2_alg».proof.Defs
import proofs.«148882_g2000506213749581_pallasbulk_74_2_alg».proof.Proof.Gen.Kernel
import proofs.«148882_g2000506213749581_pallasbulk_74_2_alg».proof.Proof.Gen.Kernel.Skeleton
import proofs.«148882_g2000506213749581_pallasbulk_74_2_alg».proof.Proof.Gen.Kernel.Launch
import proofs.«148882_g2000506213749581_pallasbulk_74_2_alg».proof.Proof.Gen.Kernel.Points
import proofs.«148882_g2000506213749581_pallasbulk_74_2_alg».proof.Proof.Gen.Kernel.Frame
import proofs.«148882_g2000506213749581_pallasbulk_74_2_alg».proof.Proof.Gen.KernelIdeal
import proofs.«148882_g2000506213749581_pallasbulk_74_2_alg».proof.Proof.Gen.KernelIdeal.Skeleton
import proofs.«148882_g2000506213749581_pallasbulk_74_2_alg».proof.Proof.Gen.KernelIdeal.Launch
import proofs.«148882_g2000506213749581_pallasbulk_74_2_alg».proof.Proof.Gen.KernelIdeal.Points
import proofs.«148882_g2000506213749581_pallasbulk_74_2_alg».proof.Proof.Gen.KernelIdeal.Frame
import proofs.«148882_g2000506213749581_pallasbulk_74_2_alg».proof.Proof.Gen.ReferenceIdeal
import proofs.«148882_g2000506213749581_pallasbulk_74_2_alg».proof.Proof.Gen.ReferenceIdeal.Skeleton
import proofs.«148882_g2000506213749581_pallasbulk_74_2_alg».proof.Proof.Gen.ReferenceIdeal.Launch
import proofs.«148882_g2000506213749581_pallasbulk_74_2_alg».proof.Proof.Gen.ReferenceIdeal.Points
import proofs.«148882_g2000506213749581_pallasbulk_74_2_alg».proof.Proof.Gen.ReferenceIdeal.Frame
import proofs.«148882_g2000506213749581_pallasbulk_74_2_alg».proof.Proof.Gen.Pre_finite_inputs
import proofs.«148882_g2000506213749581_pallasbulk_74_2_alg».proof.Proof.Gen.KernelIdeal.Value
import proofs.«148882_g2000506213749581_pallasbulk_74_2_alg».proof.Proof.Gen.ReferenceIdeal.Value
import proofs.«148882_g2000506213749581_pallasbulk_74_2_alg».proof.Proof.KernelValue
import proofs.«148882_g2000506213749581_pallasbulk_74_2_alg».proof.Proof.ReferenceValue
import Idealize.ShloMosaic.Adequacy
import Idealize.ShloMosaic.Init

noncomputable section

namespace Cert.Proof.MlpClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Both runs end with the result array at the perceptron of their arguments; the arguments agree, so the results do. -/
theorem algebraic : Cert.algebraic_KernelIdeal_ReferenceIdeal := by
  intro m ρ m' ρ' _ hagree
  refine ⟨_, Cert.KernelIdeal.MlpValue.run m ρ, ?_⟩
  refine (θ_run Cert.ReferenceIdeal.defs _ _).mono (fun _ h c => ⟨(h c).1.trans ?_, (h c).2⟩)
    (Cert.ReferenceIdeal.MlpValue.run m' ρ')
  exact congr (congr (congr (congr (congrArg Cert.Mlp.mlp (hagree c).1) (hagree c).2.1) (hagree c).2.2.1) (hagree c).2.2.2.1)
    (hagree c).2.2.2.2

end Cert.Proof.MlpClaims

namespace Cert.Proof

theorem claim : Cert.Claim := ⟨Cert.Kernel.Gen.facts, Cert.KernelIdeal.Gen.facts, Cert.ReferenceIdeal.Gen.facts, Cert.Pre_finite_inputs.Gen.facts,
  MlpClaims.frame_k, MlpClaims.frame_ki, MlpClaims.frame_ri, trivial, MlpClaims.algebraic⟩

end Cert.Proof

end
